-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100x128 : Shape := ⟨2, ![100, 128]⟩
abbrev S2x600000 : Shape := ⟨2, ![2, 600000]⟩
abbrev S600000 : Shape := ⟨1, ![600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S2x600000 : S_.BroadcastsInDim S2x600000 (![] : Fin 0 → Fin S2x600000.rank)
  reducesTo_S2x600000_S_d0_1 : S2x600000.ReducesTo [0, 1] S_
  bcast_S_S600000 : S_.BroadcastsInDim S600000 (![] : Fin 0 → Fin S600000.rank)
  reducesTo_S600000_S_d0 : S600000.ReducesTo [0] S_

variable [Facts]

def fn_part1 {F : FTy → Type} [FloatOps F] (main_arg3 : IVec S600000 32) (main_v15 : IVec S_ 1) (main_c_5 : IVec S_ 32) : IVec S_ 1 :=
  let main_v16 : IVec S600000 32 := broadcastInDim S600000 ![] bcast_S_S600000 main_c_5
  let main_v17 : IVec S600000 1 := cmpi .sge main_arg3 main_v16
  let main_c_6 : IVec S_ 32 := constantI S_ 32 100#32
  let main_v18 : IVec S600000 32 := broadcastInDim S600000 ![] bcast_S_S600000 main_c_6
  let main_v19 : IVec S600000 1 := cmpi .slt main_arg3 main_v18
  let main_v20 : IVec S600000 1 := andi main_v17 main_v19
  let main_c_7 : IVec S_ 1 := constantI S_ 1 1#1
  let main_v21 : IVec S_ 1 := (fun x v => Host.reduce IntOp.andi x v reducesTo_S600000_S_d0 h_S_) main_v20 main_c_7
  let main_v22 : IVec S_ 1 := andi main_v15 main_v21
  main_v22

def fn {F : FTy → Type} [FloatOps F] (main_arg0 : FVec F S100000x128 .f32) (main_arg1 : FVec F S100x128 .f32) (main_arg2 : IVec S2x600000 32) (main_arg3 : IVec S600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100x128 .f32 := Host.absf main_arg1
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_c_2 : IVec S_ 32 := constantI S_ 32 0#32
  let main_v9 : IVec S2x600000 32 := broadcastInDim S2x600000 ![] bcast_S_S2x600000 main_c_2
  let main_v10 : IVec S2x600000 1 := cmpi .sge main_arg2 main_v9
  let main_c_3 : IVec S_ 32 := constantI S_ 32 100000#32
  let main_v11 : IVec S2x600000 32 := broadcastInDim S2x600000 ![] bcast_S_S2x600000 main_c_3
  let main_v12 : IVec S2x600000 1 := cmpi .slt main_arg2 main_v11
  let main_v13 : IVec S2x600000 1 := andi main_v10 main_v12
  let main_c_4 : IVec S_ 1 := constantI S_ 1 1#1
  let main_v14 : IVec S_ 1 := (fun x v => Host.reduce IntOp.andi x v reducesTo_S2x600000_S_d0_1 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S100000x128 : Shape := ⟨2, ![100000, 128]⟩
abbrev S100x128 : Shape := ⟨2, ![100, 128]⟩
abbrev S2x600000 : Shape := ⟨2, ![2, 600000]⟩
abbrev S600000 : Shape := ⟨1, ![600000]⟩
abbrev S1x600000 : Shape := ⟨2, ![1, 600000]⟩
abbrev S_ : Shape := ⟨0, ![]⟩
abbrev S602112 : Shape := ⟨1, ![602112]⟩
abbrev S602112x1 : Shape := ⟨2, ![602112, 1]⟩
abbrev S1 : Shape := ⟨1, ![1]⟩
abbrev S1x1 : Shape := ⟨2, ![1, 1]⟩
abbrev S602112x128 : Shape := ⟨2, ![602112, 128]⟩
abbrev S4096x128 : Shape := ⟨2, ![4096, 128]⟩
abbrev S4096 : Shape := ⟨1, ![4096]⟩
abbrev S4096x1 : Shape := ⟨2, ![4096, 1]⟩
abbrev S4096x100 : Shape := ⟨2, ![4096, 100]⟩

abbrev nBuf : Space → Nat
  | .hbm => 65
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S100x128, .f32⟩
  | .hbm, ⟨2, _⟩ => ⟨S2x600000, .i32⟩
  | .hbm, ⟨3, _⟩ => ⟨S600000, .i32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S_, .i32⟩
  | .hbm, ⟨9, _⟩ => ⟨S_, .i32⟩
  | .hbm, ⟨10, _⟩ => ⟨S602112, .i32⟩
  | .hbm, ⟨11, _⟩ => ⟨S_, .i32⟩
  | .hbm, ⟨12, _⟩ => ⟨S_, .i32⟩
  | .hbm, ⟨13, _⟩ => ⟨S602112, .i32⟩
  | .hbm, ⟨14, _⟩ => ⟨S_, .i32⟩
  | .hbm, ⟨15, _⟩ => ⟨S_, .i32⟩
  | .hbm, ⟨16, _⟩ => ⟨S602112, .i32⟩
  | .hbm, ⟨17, _⟩ => ⟨S_, .i32⟩
  | .hbm, ⟨18, _⟩ => ⟨S602112, .i32⟩
  | .hbm, ⟨19, _⟩ => ⟨S602112, .i1⟩
  | .hbm, ⟨20, _⟩ => ⟨S_, .i32⟩
  | .hbm, ⟨21, _⟩ => ⟨S602112, .i32⟩
  | .hbm, ⟨22, _⟩ => ⟨S602112, .i32⟩
  | .hbm, ⟨23, _⟩ => ⟨S602112, .i32⟩
  | .hbm, ⟨24, _⟩ => ⟨S602112x1, .i32⟩
  | .hbm, ⟨25, _⟩ => ⟨S1, .i32⟩
  | .hbm, ⟨26, _⟩ => ⟨S_, .i32⟩
  | .hbm, ⟨27, _⟩ => ⟨S602112x1, .i32⟩
  | .hbm, ⟨28, _⟩ => ⟨S602112x1, .i1⟩
  | .hbm, ⟨29, _⟩ => ⟨S1x1, .i32⟩
  | .hbm, ⟨30, _⟩ => ⟨S602112x1, .i32⟩
  | .hbm, ⟨31, _⟩ => ⟨S602112x1, .i1⟩
  | .hbm, ⟨32, _⟩ => ⟨S602112x1, .i1⟩
  | .hbm, ⟨33, _⟩ => ⟨S_, .i1⟩
  | .hbm, ⟨34, _⟩ => ⟨S602112, .i1⟩
  | .hbm, ⟨35, _⟩ => ⟨S602112x128, .f32⟩
  | .hbm, ⟨36, _⟩ => ⟨S602112x128, .i1⟩
  | .hbm, ⟨37, _⟩ => ⟨S_, .f32⟩
  | .hbm, ⟨38, _⟩ => ⟨S602112x128, .f32⟩
  | .hbm, ⟨39, _⟩ => ⟨S602112x128, .f32⟩
  | .hbm, ⟨40, _⟩ => ⟨S_, .i32⟩
  | .hbm, ⟨41, _⟩ => ⟨S602112, .i32⟩
  | .hbm, ⟨42, _⟩ => ⟨S602112, .i1⟩
  | .hbm, ⟨43, _⟩ => ⟨S_, .i32⟩
  | .hbm, ⟨44, _⟩ => ⟨S602112, .i32⟩
  | .hbm, ⟨45, _⟩ => ⟨S602112, .i32⟩
  | .hbm, ⟨46, _⟩ => ⟨S602112, .i32⟩
  | .hbm, ⟨47, _⟩ => ⟨S602112x1, .i32⟩
  | .hbm, ⟨48, _⟩ => ⟨S1, .i32⟩
  | .hbm, ⟨49, _⟩ => ⟨S_, .i32⟩
  | .hbm, ⟨50, _⟩ => ⟨S602112x1, .i32⟩
  | .hbm, ⟨51, _⟩ => ⟨S602112x1, .i1⟩
  | .hbm, ⟨52, _⟩ => ⟨S1x1, .i32⟩
  | .hbm, ⟨53, _⟩ => ⟨S602112x1, .i32⟩
  | .hbm, ⟨54, _⟩ => ⟨S602112x1, .i1⟩
  | .hbm, ⟨55, _⟩ => ⟨S602112x1, .i1⟩
  | .hbm, ⟨56, _⟩ => ⟨S_, .i1⟩
  | .hbm, ⟨57, _⟩ => ⟨S602112, .i1⟩
  | .hbm, ⟨58, _⟩ => ⟨S602112x128, .f32⟩
  | .hbm, ⟨59, _⟩ => ⟨S602112x128, .i1⟩
  | .hbm, ⟨60, _⟩ => ⟨S_, .f32⟩
  | .hbm, ⟨61, _⟩ => ⟨S602112x128, .f32⟩
  | .hbm, ⟨62, _⟩ => ⟨S602112x128, .f32⟩
  | .hbm, ⟨63, _⟩ => ⟨S602112, .f32⟩
  | .hbm, ⟨64, _⟩ => ⟨S600000, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096, .i32⟩
  | .local _ .vmem, ⟨5, _⟩ => ⟨S4096, .i32⟩
  | .local _ .vmem, ⟨6, _⟩ => ⟨S100x128, .f32⟩
  | .local _ .vmem, ⟨7, _⟩ => ⟨S4096, .f32⟩
  | .local _ .vmem, ⟨8, _⟩ => ⟨S4096, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_call3_c : Ref sig .tc := ⟨.hbm, 17, rfl⟩
abbrev main_call3_v0 : Ref sig .tc := ⟨.hbm, 18, rfl⟩
abbrev main_call3_v1 : Ref sig .tc := ⟨.hbm, 19, rfl⟩
abbrev main_call3_c_0 : Ref sig .tc := ⟨.hbm, 20, rfl⟩
abbrev main_call3_v2 : Ref sig .tc := ⟨.hbm, 21, rfl⟩
abbrev main_call3_v3 : Ref sig .tc := ⟨.hbm, 22, rfl⟩
abbrev main_call3_v4 : Ref sig .tc := ⟨.hbm, 23, rfl⟩
abbrev main_call3_v5 : Ref sig .tc := ⟨.hbm, 24, rfl⟩
abbrev main_call3_c_1 : Ref sig .tc := ⟨.hbm, 25, rfl⟩
abbrev main_call3_c_2 : Ref sig .tc := ⟨.hbm, 26, rfl⟩
abbrev main_call3_v6 : Ref sig .tc := ⟨.hbm, 27, rfl⟩
abbrev main_call3_v7 : Ref sig .tc := ⟨.hbm, 28, rfl⟩
abbrev main_call3_v8 : Ref sig .tc := ⟨.hbm, 29, rfl⟩
abbrev main_call3_v9 : Ref sig .tc := ⟨.hbm, 30, rfl⟩
abbrev main_call3_v10 : Ref sig .tc := ⟨.hbm, 31, rfl⟩
abbrev main_call3_v11 : Ref sig .tc := ⟨.hbm, 32, rfl⟩
abbrev main_call3_c_3 : Ref sig .tc := ⟨.hbm, 33, rfl⟩
abbrev main_call3_v12 : Ref sig .tc := ⟨.hbm, 34, rfl⟩
abbrev main_call3_v13 : Ref sig .tc := ⟨.hbm, 35, rfl⟩
abbrev main_call3_v14 : Ref sig .tc := ⟨.hbm, 36, rfl⟩
abbrev main_call3_cst : Ref sig .tc := ⟨.hbm, 37, rfl⟩
abbrev main_call3_v15 : Ref sig .tc := ⟨.hbm, 38, rfl⟩
abbrev main_v7 : Ref sig .tc := ⟨.hbm, 39, rfl⟩
abbrev main_call4_c : Ref sig .tc := ⟨.hbm, 40, rfl⟩
abbrev main_call4_v0 : Ref sig .tc := ⟨.hbm, 41, rfl⟩
abbrev main_call4_v1 : Ref sig .tc := ⟨.hbm, 42, rfl⟩
abbrev main_call4_c_0 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_call4_v5 : Ref sig .tc := ⟨.hbm, 47, rfl⟩
abbrev main_call4_c_1 : Ref sig .tc := ⟨.hbm, 48, rfl⟩
abbrev main_call4_c_2 : Ref sig .tc := ⟨.hbm, 49, rfl⟩
abbrev main_call4_v6 : Ref sig .tc := ⟨.hbm, 50, rfl⟩
abbrev main_call4_v7 : Ref sig .tc := ⟨.hbm, 51, rfl⟩
abbrev main_call4_v8 : Ref sig .tc := ⟨.hbm, 52, rfl⟩
abbrev main_call4_v9 : Ref sig .tc := ⟨.hbm, 53, rfl⟩
abbrev main_call4_v10 : Ref sig .tc := ⟨.hbm, 54, rfl⟩
abbrev main_call4_v11 : Ref sig .tc := ⟨.hbm, 55, rfl⟩
abbrev main_call4_c_3 : Ref sig .tc := ⟨.hbm, 56, rfl⟩
abbrev main_call4_v12 : Ref sig .tc := ⟨.hbm, 57, rfl⟩
abbrev main_call4_v13 : Ref sig .tc := ⟨.hbm, 58, rfl⟩
abbrev main_call4_v14 : Ref sig .tc := ⟨.hbm, 59, rfl⟩
abbrev main_call4_cst : Ref sig .tc := ⟨.hbm, 60, rfl⟩
abbrev main_call4_v15 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![147], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S100x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  pads_S600000_S602112_021120 : S600000.Pads (![0] : Fin 1 → Nat) ![2112] ![0] S602112
  h_S_ : 0 < S_.numel
  bcast_S_S602112 : S_.BroadcastsInDim S602112 (![] : Fin 0 → Fin S602112.rank)
  bcast_S602112_S602112x1_0 : S602112.BroadcastsInDim S602112x1 (![0] : Fin 1 → Fin S602112x1.rank)
  bcast_S_S602112x1 : S_.BroadcastsInDim S602112x1 (![] : Fin 0 → Fin S602112x1.rank)
  bcast_S1_S1x1_1 : S1.BroadcastsInDim S1x1 (![1] : Fin 1 → Fin S1x1.rank)
  bcast_S1x1_S602112x1_0_1 : S1x1.BroadcastsInDim S602112x1 (![0, 1] : Fin 2 → Fin S602112x1.rank)
  reducesTo_S602112x1_S602112_d1 : S602112x1.ReducesTo [1] S602112
  bcast_S602112_S602112x128_0 : S602112.BroadcastsInDim S602112x128 (![0] : Fin 1 → Fin S602112x128.rank)
  bcast_S_S602112x128 : S_.BroadcastsInDim S602112x128 (![] : Fin 0 → Fin S602112x128.rank)
  inb_S4096_S4096_0 : ∀ a, (![0] : Fin 1 → Nat) a + S4096.size a ≤ S4096.size a
  h_S4096 : 0 < S4096.numel
  shapeCasts_S4096_S4096 : S4096.ShapeCasts S4096
  shapeCasts_S4096_S4096x1 : S4096.ShapeCasts S4096x1
  iota_S4096x100_d1_w32 : S4096x100.Iotas .tc 32 [1]
  broadcasts_S4096x1_S4096x100 : S4096x1.Broadcasts S4096x100
  natLt_1_32 : 1 < 32
  bitsLt_bf16_f32 : FTy.bits .bf16 < FTy.bits .f32
  inb_S100x128_S100x128_0_0 : ∀ a, (![0, 0] : Fin 2 → Nat) a + S100x128.size a ≤ S100x128.size a
  h_S100x128 : 0 < S100x128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  slices_S602112_S600000_0 : S602112.Slices ![0] S600000
  gather_S100000x128_S602112x1_S602112x128_1_0_n_n_0_1_1128_wf : GatherDims.WF S100000x128 S602112x1 S602112x128 [1] [0] [] [0] [] 1 ![1, 128]
  dot_S4096x100_S100x128_S4096x128_1_0_0_1_n_n_wf : DotDims.WF S4096x100 S100x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S602112x128.size a
  hwx0_0 : ∀ i : grid0.Coords, EltTy.bits .f32 = 32 ∨ (Rect.block (s := S602112x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S602112x128.size a
  hwx0_1 : ∀ i : grid0.Coords, EltTy.bits .f32 = 32 ∨ (Rect.block (s := S602112x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S602112.size a
  hwx0_2 : ∀ i : grid0.Coords, EltTy.bits .i32 = 32 ∨ (Rect.block (s := S602112) S4096.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x128.size a ≤ S100x128.size a
  hwx0_3 : ∀ i : grid0.Coords, EltTy.bits .f32 = 32 ∨ (Rect.block (s := S100x128) S100x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S602112.size a
  hwx0_4 : ∀ i : grid0.Coords, EltTy.bits .f32 = 32 ∨ (Rect.block (s := S602112) S4096.size (cc0_transform_4 i) (hinb0_4 i)).WholeWords (EltTy.packing .f32)

variable [Facts₀]

def gather_S100000x128_S602112x1_S602112x128_1_0_n_n_0_1_1128 : GatherDims S100000x128 S602112x1 S602112x128 where
  offsetDims := [1]
  collapsedSliceDims := [0]
  operandBatchingDims := []
  startIndicesBatchingDims := []
  startIndexMap := [0]
  indexVectorDim := 1
  sliceSizes := ![1, 128]
  wf := gather_S100000x128_S602112x1_S602112x128_1_0_n_n_0_1_1128_wf
def dot_S4096x100_S100x128_S4096x128_1_0_0_1_n_n : DotDims S4096x100 S100x128 S4096x128 where
  lhsContracting := [1]
  rhsContracting := [0]
  lhsNonContracting := [0]
  rhsNonContracting := [1]
  lhsBatch := []
  rhsBatch := []
  wf := dot_S4096x100_S100x128_S4096x128_1_0_0_1_n_n_wf

abbrev win0_0 : Pipeline.Window sig grid0 :=
  Pipeline.Window.ofSpec (Memref.whole main_v7) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S100x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S100x128 : Shape := ⟨2, ![100, 128]⟩
abbrev S2x600000 : Shape := ⟨2, ![2, 600000]⟩
abbrev S600000 : Shape := ⟨1, ![600000]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩

abbrev nBuf : Space → Nat
  | .hbm => 39
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100x128, .f32⟩
  | .hbm, ⟨2, _⟩ => ⟨S2x600000, .i32⟩
  | .hbm, ⟨3, _⟩ => ⟨S600000, .i32⟩
  | .hbm, ⟨4, _⟩ => ⟨S1x600000, .i32⟩
  | .hbm, ⟨5, _⟩ => ⟨S600000, .i32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S1x600000, .i32⟩
  | .hbm, ⟨16, _⟩ => ⟨S600000, .i32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x128, .f32⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .f32⟩
  | .hbm, ⟨35, _⟩ => ⟨S600000x128, .f32⟩
  | .hbm, ⟨36, _⟩ => ⟨S600000x128, .f32⟩
  | .hbm, ⟨37, _⟩ => ⟨S_, .f32⟩
  | .hbm, ⟨38, _⟩ => ⟨S600000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  reducesTo_S600000x128_S600000_d1 : S600000x128.ReducesTo [1] S600000
  h_S_ : 0 < S_.numel
  gather_S100000x128_S600000x1_S600000x128_1_0_n_n_0_1_1128_wf : GatherDims.WF S100000x128 S600000x1 S600000x128 [1] [0] [] [0] [] 1 ![1, 128]
  gather_S100x128_S600000x1_S600000x128_1_0_n_n_0_1_1128_wf : GatherDims.WF S100x128 S600000x1 S600000x128 [1] [0] [] [0] [] 1 ![1, 128]

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def gather_S100x128_S600000x1_S600000x128_1_0_n_n_0_1_1128 : GatherDims S100x128 S600000x1 S600000x128 where
  offsetDims := [1]
  collapsedSliceDims := [0]
  operandBatchingDims := []
  startIndicesBatchingDims := []
  startIndexMap := [0]
  indexVectorDim := 1
  sliceSizes := ![1, 128]
  wf := gather_S100x128_S600000x1_S600000x128_1_0_n_n_0_1_1128_wf

class Facts : Prop extends Facts₀ where

variable [Facts]
-- ==== Proof.Spec.lean ====
/-
  The DistMult score, as one function of the four argument arrays.

  For edge `p` with endpoints `src = ends[0, p]`, `dst = ends[1, p]` and relation `ty = types[p]`,
      score p = ∑ d < 128, z[src, d] * rel[ty, d] * z[dst, d]
  over the extended reals. An index word names a table row by its signed value clamped into the table
  (`clampRow`); on words already inside the table (`InRange`) that is the word's value itself.
-/
import Idealize.ShloMosaic.Lib.ValueIdx
import Idealize.ShloMosaic.PureOps.Ideal.Laws

noncomputable section

open scoped BigOperators

namespace Cert.DistMult

open Idealize.ShloMosaic Idealize.ShloMosaic.ValueIdx

/-- Node embeddings `z : [100000, 128]`. -/
abbrev Nodes : Shape := ⟨2, ![100000, 128]⟩
/-- Relation embeddings `rel : [100, 128]`. -/
abbrev Rels : Shape := ⟨2, ![100, 128]⟩
/-- Edge endpoints `[2, 600000]`: row 0 the sources, row 1 the destinations. -/
abbrev Ends : Shape := ⟨2, ![2, 600000]⟩
/-- One entry per edge `[600000]`. -/
abbrev Edges : Shape := ⟨1, ![600000]⟩

/-- The row of an `N`-row table that a 32-bit index word names: its signed value clamped into `[0, N - 1]`. -/
def clampRow (N : Nat) (hN : 0 < N) (b : BitVec 32) : Fin N := ⟨min b.toInt.toNat (N - 1), by omega⟩

theorem clampRow_val (N : Nat) (hN : 0 < N) (b : BitVec 32) : (clampRow N hN b).val = min b.toInt.toNat (N - 1) := rfl

/-- A word below `2 ^ 31` reads the same signed and unsigned. -/
theorem toInt_toNat_of_lt (b : BitVec 32) (hb : b.toNat < 2 ^ 31) : b.toInt.toNat = b.toNat := by
  have : b.toInt = (b.toNat : Int) := by
    rw [BitVec.toInt_eq_toNat_cond]
    rw [if_pos (by omega)]
  rw [this]; exact Int.toNat_natCast _

/-- On a word already inside the table the clamp does nothing. -/
theorem clampRow_val_of_lt (N : Nat) (hN : 0 < N) (hN' : N ≤ 2 ^ 31) (b : BitVec 32) (hb : b.toNat < N) :
    (clampRow N hN b).val = b.toNat := by
  rw [clampRow_val, toInt_toNat_of_lt b (by omega)]
  omega

/-- Every endpoint is a node and every relation type is a relation: the index words lie inside their tables. -/
def InRange (ei : IVec Ends 32) (et : IVec Edges 32) : Prop :=
  (∀ i, (ei i).toNat < 100000) ∧ (∀ e, (et e).toNat < 100)

/-- The score of edge `p`. -/
def scoreAt (z : FVec Ideal Nodes .f32) (rel : FVec Ideal Rels .f32) (ei : IVec Ends 32) (et : IVec Edges 32)
    (p : Fin 600000) : EReal :=
  ∑ d : Fin 128, z (ix2 (clampRow 100000 (by decide) (ei (ix2 (0 : Fin 2) p))) d)
    * rel (ix2 (clampRow 100 (by decide) (et (ix1 p))) d)
    * z (ix2 (clampRow 100000 (by decide) (ei (ix2 (1 : Fin 2) p))) d)

/-- All scores, one per edge. -/
def score (z : FVec Ideal Nodes .f32) (rel : FVec Ideal Rels .f32) (ei : IVec Ends 32) (et : IVec Edges 32) :
    FVec Ideal Edges .f32 :=
  fun e => scoreAt z rel ei et (e 0)

theorem score_apply (z : FVec Ideal Nodes .f32) (rel : FVec Ideal Rels .f32) (ei : IVec Ends 32) (et : IVec Edges 32)
    (p : Fin 600000) : score z rel ei et (ix1 p) = scoreAt z rel ei et p := rfl

end Cert.DistMult

end
-- ==== Proof.Ranges.lean ====
/-
  The precondition, read back.

  The precondition is a conjunction of four `i1` scalars; the last two are `all`-reductions of
  `(0 ≤ w) ∧ (w < N)`, compared signed, over the endpoint words (`N = 100000`) and the relation-type
  words (`N = 100`). A 32-bit word whose signed value lies in `[0, N)` with `N < 2 ^ 31` has the same
  unsigned value, so each word is below its table's row count.
-/
import proofs.«401409_j25074019074708_1_alg».proof.Pre_finite_inputs
import proofs.«401409_j25074019074708_1_alg».proof.Proof.Spec
import Idealize.ShloMosaic.Lib.ReduceAll
import Idealize.ShloMosaic.Lib.StableHlo.Predicate

noncomputable section

namespace Cert.DistMult

open Idealize.ShloMosaic Idealize.ShloMosaic.ValueIdx

/-- A word that tests `0 ≤ w` and `w < N` signed, for a bound `N` below `2 ^ 31`, is below `N` unsigned:
    a nonnegative signed value has its top bit clear, and then reads the same signed and unsigned. -/
theorem toNat_lt_of_signed_range (w : BitVec 32) (N : Nat) (hN : N < 2 ^ 31)
    (hge : IntOp.cmpi .sge w 0#32 = 1#1) (hlt : IntOp.cmpi .slt w (BitVec.ofNat 32 N) = 1#1) : w.toNat < N := by
  rw [IntOp.cmpi_sge, show (0#32 : BitVec 32).toInt = 0 from by decide] at hge
  rw [IntOp.cmpi_slt, StableHlo.Predicate.toInt_ofNat_small N hN] at hlt
  have htop : 2 * w.toNat < 2 ^ 32 := BitVec.toInt_pos_iff.1 hge
  rw [BitVec.toInt_eq_toNat_of_lt htop] at hlt
  exact_mod_cast hlt

/-- The precondition's last two conjuncts say the index words lie inside their tables. -/
theorem inRange_of_pre [Cert.Pre_finite_inputs.Facts] {F : FTy → Type} [FloatOps F]
    (x0 : FVec F Nodes .f32) (x1 : FVec F Rels .f32) (x2 : IVec Ends 32) (x3 : IVec Edges 32)
    (h : Cert.Pre_finite_inputs.fn (F := F) x0 x1 x2 x3 = fun _ => 1#1) : InRange x2 x3 := by
  -- the rank-0 shape has one index
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  -- the four scalar conjuncts
  obtain ⟨h123, hty⟩ := IntOp.andi_eq_one.1 h0
  obtain ⟨_, hends⟩ := IntOp.andi_eq_one.1 h123
  refine ⟨fun i => ?_, fun e => ?_⟩
  · -- every endpoint word passed both tests
    have hi := Host.reduce_andi_all _ _ _ _ _ hends i
    obtain ⟨hge, hlt⟩ := IntOp.andi_eq_one.1 hi
    exact toNat_lt_of_signed_range (x2 i) 100000 (by norm_num) hge hlt
  · -- every relation-type word passed both tests
    have he := Host.reduce_andi_all _ _ _ _ _ hty e
    obtain ⟨hge, hlt⟩ := IntOp.andi_eq_one.1 he
    exact toNat_lt_of_signed_range (x3 e) 100 (by norm_num) hge hlt

end Cert.DistMult

end
-- ==== Proof.LibGatherRows.lean ====
/-
  Row gather read at an element. jnp's `table[idx]` over a rank-2 table `[N, L]` with an integer vector `idx : [n]`
  lowers to a `stablehlo.gather` whose start indices are the `[n, 1]` column of positions: operand axis 0 is collapsed
  and start-indexed, operand axis 1 is the one offset axis (a whole row of length `L` is the slice), and the index
  vector sits on axis 1 of the start indices. Result element `(p, q)` is therefore the table at row
  "start index of position `p`, read signed and clamped into `[0, N - 1]`" and column `q`.
-/
import Idealize.ShloMosaic.Lib.ValueIdx
import Idealize.ShloMosaic.Lib.StableHlo.Predicate

namespace Idealize.ShloMosaic.GatherRows

open Idealize.ShloMosaic Idealize.ShloMosaic.ValueIdx Idealize.ShloMosaic.StableHlo.Predicate

/-- THE ROW GATHER at `(p, q)`: the operand at row `clamp (idx[p, 0])`, column `q`. The hypotheses are the printed
    dimension numbers, each closed by `rfl` at a program's record. -/
theorem gather_rows {α : Type} {N L n w : Nat} (d : GatherDims ⟨2, ![N, L]⟩ ⟨2, ![n, 1]⟩ ⟨2, ![n, L]⟩)
    (hoff : d.offsetDims = [1]) (hcoll : d.collapsedSliceDims = [0]) (hob : d.operandBatchingDims = [])
    (hsim : d.startIndexMap = [0]) (hivd : d.indexVectorDim = 1)
    (x : (⟨2, ![N, L]⟩ : Shape).Idx → α) (idx : IVec ⟨2, ![n, 1]⟩ w) (p : Fin n) (q : Fin L) (hN : 0 < N) :
    Host.gather d x idx (ix2 p q) = x (ix2 ⟨min (idx (ixP p)).toInt.toNat (N - 1), by omega⟩ q) := by
  unfold Host.gather
  congr 1
  funext a
  apply Fin.ext
  have hb : ∀ a : Fin 2, a ∉ d.operandBatchingDims := fun a => by rw [hob]; exact List.not_mem_nil
  match a with
  | ⟨0, _⟩ =>
    -- the collapsed, start-indexed axis: the clamped start index, no batch or offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = _
    rw [GatherDims.batchCoord_eq_zero _ _ _ (hb 0), GatherDims.offCoord_eq_zero _ _ _ hk]
    simp only [Nat.add_zero, GatherDims.start, dif_pos hm]
    show min (idx _).toInt.toNat (N - d.sliceSizes 0) = min (idx (ixP p)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      -- the result's batch axes are the non-offset ones: axis 0 only
      have hbd : d.batchDims = [0] := by
        show (⟨2, ![n, L]⟩ : Shape).kept d.offsetDims = [0]
        rw [hoff]; rfl
      have hsk : d.siKept = [0] := by
        show (List.finRange 2).filter (fun b : Fin 2 => b.val ≠ d.indexVectorDim) = [0]
        rw [hivd]; decide
      have e : ∀ (k : Nat) (hk : k < d.batchDims.length), ((ix2 p q : (⟨2, ![n, L]⟩ : Shape).Idx) (d.batchDims[k]'hk)).val = p.val := by
        intro k hk
        have hk0 : k = 0 := by rw [hbd] at hk; simpa using hk
        subst hk0
        have : d.batchDims[0]'hk = (0 : Fin 2) := by simp [hbd]
        rw [this]
      exact e _ _
    | ⟨1, _⟩ =>
      unfold GatherDims.siIdx
      rw [dif_pos (by rw [hivd])]
      apply Fin.ext
      show List.idxOf (0 : Fin 2) d.startIndexMap = 0
      rw [hsim]; simp
  | ⟨1, _⟩ =>
    -- the offset axis: no start index (axis 1 is not start-indexed), the result's column
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hb 1)]
    simp only [GatherDims.start, dif_neg hm, Nat.add_zero, Nat.zero_add, GatherDims.offCoord, dif_pos hk]
    have hsk : d.sKept = [1] := by
      show (⟨2, ![N, L]⟩ : Shape).kept (d.collapsedSliceDims ++ d.operandBatchingDims) = [1]
      rw [hcoll, hob]; rfl
    have e : ∀ (k : Nat) (hk : k < d.offsetDims.length), ((ix2 p q : (⟨2, ![n, L]⟩ : Shape).Idx) (d.offsetDims[k]'hk)).val = q.val := by
      intro k hk
      have hk0 : k = 0 := by rw [hoff] at hk; simpa using hk
      subst hk0
      have : d.offsetDims[0]'hk = (1 : Fin 2) := by simp [hoff]
      rw [this]
    exact e _ _

end Idealize.ShloMosaic.GatherRows
-- ==== Proof.RefScore.lean ====
import proofs.«401409_j25074019074708_1_alg».proof.Proof.Gen.ReferenceIdeal.Run
import proofs.«401409_j25074019074708_1_alg».proof.Proof.Gen.ReferenceIdeal.Read
import proofs.«401409_j25074019074708_1_alg».proof.Proof.LibGatherRows
import proofs.«401409_j25074019074708_1_alg».proof.Proof.Spec
import Idealize.ShloMosaic.Lib.StableHlo.Predicate

/-
  The reference program is the DistMult score.

  The reference reads each of its three tables by a row gather whose start indices are the index words after
  the wrap of a negative index, w ↦ if w < 0 then w + N else w. On a word already inside its table the
  wrap does nothing (the word is not negative), and the gather's own clamp into [0, N - 1] is the clamp the
  score is written with. What is left is the product of the three gathered entries summed over the 128 columns
  from the initial value 0.
-/

noncomputable section

open scoped BigOperators

namespace Cert.ReferenceIdeal.RefValue

open Idealize.ShloMosaic Idealize.ShloMosaic.ValueIdx Cert.ReferenceIdeal Cert.ReferenceIdeal.Gen Cert.ReferenceIdeal.Read Cert.DistMult
open Idealize.ShloMosaic.StableHlo.Predicate (ixP slt_iff_toNat)

/-! ## Words: a word inside a table is not negative, so the wrap leaves it alone -/

/-- A word below 2 ^ 31 is not negative: the signed comparison with zero is the bit 0. -/
theorem slt_zero_of_lt (w : BitVec 32) (hw : w.toNat < 2 ^ 31) : IntOp.cmpi .slt w 0#32 = 0#1 := by
  apply eq_zero_of_ne_one
  intro h
  exact Nat.not_lt_zero _ ((slt_iff_toNat hw (by decide)).mp h)

/-- The wrap of a negative index, if w < 0 then w + N else w, is the word itself on a word below 2 ^ 31. -/
theorem wrap_of_lt (w N : BitVec 32) (hw : w.toNat < 2 ^ 31) :
    Scalar.select (IntOp.cmpi .slt w 0#32) (IntOp.addi w N) w = w := by
  rw [slt_zero_of_lt w hw, select_zero]

/-! ## The three columns of start indices at position p -/

/-- The source column at p is the word ends[0, p]. -/
theorem src_word (x2 : IVec S2x600000 32) (p : Fin 600000) (hw : (x2 (ix2 (0 : Fin 2) p)).toNat < 2 ^ 31) :
    val_main_v7 (F := Ideal) x2 (ixP p) = x2 (ix2 (0 : Fin 2) p) := by
  have hi : idx_main_v0 (idx_main_v1 (idx_main_v7 (ixP p))) = ix2 (0 : Fin 2) p := by
    funext a
    match a with
    | ⟨0, _⟩ => rfl
    | ⟨1, _⟩ => exact Fin.ext (Nat.mod_eq_of_lt p.isLt)
  rw [val_main_v7_apply, val_main_v6_apply, val_main_v3_apply, val_main_v5_apply, val_main_v2_apply, val_main_c_apply,
    val_main_v4_apply, val_main_c_0_apply, val_main_v1_apply, val_main_v0_apply, hi]
  exact wrap_of_lt _ _ hw

/-- The destination column at p is the word ends[1, p]. -/
theorem dst_word (x2 : IVec S2x600000 32) (p : Fin 600000) (hw : (x2 (ix2 (1 : Fin 2) p)).toNat < 2 ^ 31) :
    val_main_v16 (F := Ideal) x2 (ixP p) = x2 (ix2 (1 : Fin 2) p) := by
  have hi : idx_main_v9 (idx_main_v10 (idx_main_v16 (ixP p))) = ix2 (1 : Fin 2) p := by
    funext a
    match a with
    | ⟨0, _⟩ => rfl
    | ⟨1, _⟩ => exact Fin.ext (Nat.mod_eq_of_lt p.isLt)
  rw [val_main_v16_apply, val_main_v15_apply, val_main_v12_apply, val_main_v14_apply, val_main_v11_apply, val_main_c_1_apply,
    val_main_v13_apply, val_main_c_2_apply, val_main_v10_apply, val_main_v9_apply, hi]
  exact wrap_of_lt _ _ hw

/-- The relation column at p is the word types[p]. -/
theorem rel_word (x3 : IVec S600000 32) (p : Fin 600000) (hw : (x3 (ix1 p)).toNat < 2 ^ 31) :
    val_main_v23 (F := Ideal) x3 (ixP p) = x3 (ix1 p) := by
  have hi : idx_main_v23 (ixP p) = ix1 p := by
    funext a
    match a with
    | ⟨0, _⟩ => rfl
  rw [val_main_v23_apply, val_main_v22_apply, val_main_v19_apply, val_main_v21_apply, val_main_v18_apply, val_main_c_3_apply,
    val_main_v20_apply, val_main_c_4_apply, hi]
  exact wrap_of_lt _ _ hw

/-! ## The three gathered rows at (p, d) -/

/-- The gather's clamped row, at a start index equal to the word w, is the row w names. -/
theorem row_eq {N : Nat} (hN : 0 < N) (a w : BitVec 32) (h : a = w) (ha : min a.toInt.toNat (N - 1) < N) :
    (⟨min a.toInt.toNat (N - 1), ha⟩ : Fin N) = clampRow N hN w := by
  subst h; rfl

/-- The source row: z at the row ends[0, p] names, column d. -/
theorem src_row (x0 : FVec Ideal S100000x128 .f32) (x2 : IVec S2x600000 32) (p : Fin 600000) (d : Fin 128)
    (hw : (x2 (ix2 (0 : Fin 2) p)).toNat < 2 ^ 31) :
    val_main_v8 (F := Ideal) x0 x2 (ix2 p d) = x0 (ix2 (clampRow 100000 (by decide) (x2 (ix2 (0 : Fin 2) p))) d) := by
  unfold val_main_v8
  rw [GatherRows.gather_rows gather_S100000x128_S600000x1_S600000x128_1_0_n_n_0_1_1128 rfl rfl rfl rfl rfl x0
    (val_main_v7 (F := Ideal) x2) p d (by decide)]
  exact congrArg (fun r => x0 (ix2 r d)) (row_eq _ _ _ (src_word x2 p hw) _)

/-- The destination row: z at the row ends[1, p] names, column d. -/
theorem dst_row (x0 : FVec Ideal S100000x128 .f32) (x2 : IVec S2x600000 32) (p : Fin 600000) (d : Fin 128)
    (hw : (x2 (ix2 (1 : Fin 2) p)).toNat < 2 ^ 31) :
    val_main_v17 (F := Ideal) x0 x2 (ix2 p d) = x0 (ix2 (clampRow 100000 (by decide) (x2 (ix2 (1 : Fin 2) p))) d) := by
  unfold val_main_v17
  rw [GatherRows.gather_rows gather_S100000x128_S600000x1_S600000x128_1_0_n_n_0_1_1128 rfl rfl rfl rfl rfl x0
    (val_main_v16 (F := Ideal) x2) p d (by decide)]
  exact congrArg (fun r => x0 (ix2 r d)) (row_eq _ _ _ (dst_word x2 p hw) _)

/-- The relation row: rel at the row types[p] names, column d. -/
theorem rel_row (x1 : FVec Ideal S100x128 .f32) (x3 : IVec S600000 32) (p : Fin 600000) (d : Fin 128)
    (hw : (x3 (ix1 p)).toNat < 2 ^ 31) :
    val_main_v24 (F := Ideal) x1 x3 (ix2 p d) = x1 (ix2 (clampRow 100 (by decide) (x3 (ix1 p))) d) := by
  unfold val_main_v24
  rw [GatherRows.gather_rows gather_S100x128_S600000x1_S600000x128_1_0_n_n_0_1_1128 rfl rfl rfl rfl rfl x1
    (val_main_v23 (F := Ideal) x3) p d (by decide)]
  exact congrArg (fun r => x1 (ix2 r d)) (row_eq _ _ _ (rel_word x3 p hw) _)

/-! ## The reference is the score -/

/-- On index words inside their tables the reference's result is the score. -/
theorem ref_eq_score (x0 : FVec Ideal S100000x128 .f32) (x1 : FVec Ideal S100x128 .f32) (x2 : IVec S2x600000 32) (x3 : IVec S600000 32)
    (hr : InRange x2 x3) : val_main_v27 (F := Ideal) x0 x1 x2 x3 = score x0 x1 x2 x3 := by
  funext e
  obtain ⟨p, rfl⟩ : ∃ p : Fin 600000, e = ix1 p := ⟨e 0, eq_ix1 e⟩
  have h0 : (x2 (ix2 (0 : Fin 2) p)).toNat < 2 ^ 31 := lt_trans (hr.1 _) (by decide)
  have h1 : (x2 (ix2 (1 : Fin 2) p)).toNat < 2 ^ 31 := lt_trans (hr.1 _) (by decide)
  have h3 : (x3 (ix1 p)).toNat < 2 ^ 31 := lt_trans (hr.2 _) (by decide)
  rw [score_apply, val_main_v27_apply, val_main_cst_apply]
  show Ideal.ofBits .f32 0x00000000#32 + _ = _
  rw [Ideal.ofBits_zero_f32, zero_add]
  unfold scoreAt
  refine Finset.sum_congr rfl fun d _ => ?_
  have hi : idx_main_v27 (ix1 p) d = ix2 p d := by
    funext a
    match a with
    | ⟨0, _⟩ => rfl
    | ⟨1, _⟩ => rfl
  rw [hi, val_main_v26_apply, val_main_v25_apply, Ideal.mulf_def, Ideal.mulf_def, src_row x0 x2 p d h0, rel_row x1 x3 p d h3,
    dst_row x0 x2 p d h1]

end Cert.ReferenceIdeal.RefValue

end
-- ==== Proof.KernelBody.lean ====
/-
  The kernel body's stored value, read at one edge of a block.

  At a grid point the body loads a block of 4096 relation types, the whole relation table, and the blocks of gathered
  source and destination rows. It builds the one-hot matrix `hot[r, k] = [types[r] = k]` (a comparison against an iota,
  widened and converted to a float: 1 where equal, 0 elsewhere), multiplies it into the table on the matrix unit
  (`∑ k, hot[r, k] * rel[k, d]`), multiplies by the source and destination rows and sums over the 128 columns:
      out[r] = ∑ d, zs[r, d] * (∑ k, hot[r, k] * rel[k, d]) * zd[r, d].
  When `types[r]` names a relation, the inner sum has exactly one nonzero term and is `rel[types[r], d]`
  (on the extended reals `0 * x = 0` for every `x`, so no finiteness is needed).
-/
import proofs.«401409_j25074019074708_1_alg».proof.Proof.Gen.KernelIdeal.Skeleton
import proofs.«401409_j25074019074708_1_alg».proof.Proof.Spec
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

noncomputable section

open scoped BigOperators

namespace Cert.KernelIdeal.Body

open Idealize.ShloMosaic Idealize.ShloMosaic.ValueIdx Cert.KernelIdeal Cert.KernelIdeal.Gen Cert.DistMult

/-! ## The one-hot weights -/

/-- The one-hot weight of relation `k` for the type word `w`: 1 if `w` is `k`, else 0. -/
def hot (w : BitVec 32) (k : Fin 100) : EReal :=
  ((((IntOp.cmpi .eq w (BitVec.ofNat 32 k.val)).setWidth 32).toInt : ℝ) : EReal)

theorem hot_of_eq {w : BitVec 32} {k : Fin 100} (h : w = BitVec.ofNat 32 k.val) : hot w k = 1 := by
  unfold hot
  rw [(StableHlo.Predicate.cmpi_eq_iff).mpr h]
  norm_num

theorem hot_of_ne {w : BitVec 32} {k : Fin 100} (h : w ≠ BitVec.ofNat 32 k.val) : hot w k = 0 := by
  unfold hot
  rw [eq_zero_of_ne_one (fun h1 => h ((StableHlo.Predicate.cmpi_eq_iff).mp h1))]
  norm_num

/-- Against a type word that names a relation, the one-hot weights select that relation's entry. -/
theorem sum_hot (w : BitVec 32) (hw : w.toNat < 100) (f : Fin 100 → EReal) :
    ∑ k : Fin 100, hot w k * f k = f ⟨w.toNat, hw⟩ := by
  rw [Finset.sum_eq_single (⟨w.toNat, hw⟩ : Fin 100)]
  · rw [hot_of_eq (k := ⟨w.toNat, hw⟩) (by simp), one_mul]
  · intro k _ hk
    rw [hot_of_ne (fun h => hk (Fin.ext (by
      have := congrArg BitVec.toNat h
      rw [BitVec.toNat_ofNat, Nat.mod_eq_of_lt (by have := k.isLt; omega)] at this
      exact this.symm))), zero_mul]
  · intro h; exact absurd (Finset.mem_univ _) h

/-! ## The matrix product at an entry -/

theorem lhs_0 (i : S4096x128.Idx) (q : dot_S4096x100_S100x128_S4096x128_1_0_0_1_n_n.contr.Idx) :
    (dot_S4096x100_S100x128_S4096x128_1_0_0_1_n_n.lhsIdx i q 0).val = (i 0).val := by
  unfold DotDims.lhsIdx
  rw [dif_neg (show ¬(0 : Fin S4096x100.rank) ∈ dot_S4096x100_S100x128_S4096x128_1_0_0_1_n_n.lhsBatch by decide),
    dif_pos (show (0 : Fin S4096x100.rank) ∈ dot_S4096x100_S100x128_S4096x128_1_0_0_1_n_n.lhsNonContracting by decide)]
  rfl
theorem lhs_1 (i : S4096x128.Idx) (q : dot_S4096x100_S100x128_S4096x128_1_0_0_1_n_n.contr.Idx) :
    (dot_S4096x100_S100x128_S4096x128_1_0_0_1_n_n.lhsIdx i q 1).val = (q ⟨0, by decide⟩).val :=
  dot_S4096x100_S100x128_S4096x128_1_0_0_1_n_n.lhsIdx_val_of_single rfl i q
theorem rhs_0 (i : S4096x128.Idx) (q : dot_S4096x100_S100x128_S4096x128_1_0_0_1_n_n.contr.Idx) :
    (dot_S4096x100_S100x128_S4096x128_1_0_0_1_n_n.rhsIdx i q 0).val = (q ⟨0, by decide⟩).val :=
  dot_S4096x100_S100x128_S4096x128_1_0_0_1_n_n.rhsIdx_val_of_single rfl i q
theorem rhs_1 (i : S4096x128.Idx) (q : dot_S4096x100_S100x128_S4096x128_1_0_0_1_n_n.contr.Idx) :
    (dot_S4096x100_S100x128_S4096x128_1_0_0_1_n_n.rhsIdx i q 1).val = (i 1).val := by
  unfold DotDims.rhsIdx
  rw [dif_neg (show ¬(1 : Fin S100x128.rank) ∈ dot_S4096x100_S100x128_S4096x128_1_0_0_1_n_n.rhsBatch by decide),
    dif_pos (show (1 : Fin S100x128.rank) ∈ dot_S4096x100_S100x128_S4096x128_1_0_0_1_n_n.rhsNonContracting by decide)]
  rfl

/-- Entry `(r, d)` of the product into a zero accumulator: the row of the left factor against the column of the right. -/
theorem matmul_at (a : FVec Ideal S4096x100 .bf16) (b : FVec Ideal S100x128 .bf16) (r : Fin 4096) (d : Fin 128) :
    matmul dot_S4096x100_S100x128_S4096x128_1_0_0_1_n_n none a b (constant (F := Ideal) S4096x128 .f32 0x00000000#32) (ix2 r d)
      = ∑ k : Fin 100, a (ix2 r k) * b (ix2 k d) := by
  simp only [matmul]
  rw [Ideal.matmul_constant_zero_apply,
    ← Equiv.sum_comp (contrEquiv1 dot_S4096x100_S100x128_S4096x128_1_0_0_1_n_n 100 rfl rfl).symm]
  refine Finset.sum_congr rfl fun k _ => ?_
  have hk := contrEquiv1_symm_val dot_S4096x100_S100x128_S4096x128_1_0_0_1_n_n 100 rfl rfl k
  have el : dot_S4096x100_S100x128_S4096x128_1_0_0_1_n_n.lhsIdx (ix2 r d)
      ((contrEquiv1 dot_S4096x100_S100x128_S4096x128_1_0_0_1_n_n 100 rfl rfl).symm k) = ix2 r k := funext fun a => Fin.ext (by
    match a with
    | ⟨0, _⟩ => exact lhs_0 _ _
    | ⟨1, _⟩ => exact (lhs_1 _ _).trans hk)
  have er : dot_S4096x100_S100x128_S4096x128_1_0_0_1_n_n.rhsIdx (ix2 r d)
      ((contrEquiv1 dot_S4096x100_S100x128_S4096x128_1_0_0_1_n_n 100 rfl rfl).symm k) = ix2 k d := funext fun a => Fin.ext (by
    match a with
    | ⟨0, _⟩ => exact (rhs_0 _ _).trans hk
    | ⟨1, _⟩ => exact rhs_1 _ _)
  rw [el, er]

/-! ## The column sum -/

/-- Row `r` of the reduced vector with column `k` put back is `(r, k)`. -/
theorem lift_col (h : S4096x128.Reduces [1] S4096) (r : Fin 4096) (k : Fin (S4096x128.size 1)) :
    h.lift (ix1 r) k = ix2 r (⟨k.val, k.isLt⟩ : Fin 128) := by
  funext c; apply Fin.ext
  fin_cases c <;> rfl

/-- The sum over the columns, at row `r`. -/
theorem colsum_at (v : FVec Ideal S4096x128 .f32) (hacc : (0x00000000#32 : BitVec 32) = 0x00000000#32) (r : Fin 4096) :
    multiReduction .add [1] S4096 v 0x00000000#32 reduces_S4096x128_S4096 (.inl rfl) hacc (ix1 r)
      = ∑ d : Fin 128, v (ix2 r d) := by
  refine (Ideal.multiReduction_add_single v 0x00000000#32 reduces_S4096x128_S4096 (.inl rfl) hacc (ix1 r)).trans ?_
  exact Finset.sum_congr rfl fun k _ => congrArg v (lift_col _ r k)

/-! ## The body's stored value -/

/-- Entry `(r, k)` of the one-hot matrix the body builds from a block of type words: the weight of relation `k` for
    the word of row `r`. -/
theorem onehot_at (ty : IVec S4096 32) (r : Fin 4096) (k : Fin 100) :
    (truncf .bf16 (sitofp (F := Ideal) .f32 (extui 32 (cmpi .eq
        (broadcastTo S4096x100 (shapeCast S4096x1 ty shapeCasts_S4096_S4096x1) broadcasts_S4096x1_S4096x100)
        (iota .tc S4096x100 32 [1] iota_S4096x100_d1_w32)) natLt_1_32)) bitsLt_bf16_f32 : FVec Ideal S4096x100 .bf16) (ix2 r k)
      = hot (ty (ix1 r)) k := by
  have h4 : broadcastTo S4096x100 (shapeCast S4096x1 ty shapeCasts_S4096_S4096x1)
      broadcasts_S4096x1_S4096x100 (ix2 r k) = ty (ix1 r) := by
    refine (broadcastTo_apply _ _ (ix2 r k) (ix2 r (0 : Fin 1)) ?_).trans ?_
    · intro a
      match a with
      | ⟨0, _⟩ => show r.val = if (4096 : Nat) = 1 then 0 else r.val; rw [if_neg (by decide)]
      | ⟨1, _⟩ => show (0 : Nat) = if (1 : Nat) = 1 then 0 else _; rw [if_pos rfl]
    · exact shapeCast_apply ty _ (ix2 r (0 : Fin 1)) (ix1 r) (by
        rw [Shape.rowMajor_val_one, Shape.rowMajor_val_two]; show r.val = r.val * 1 + 0; omega)
  have h3 : iota .tc S4096x100 32 [1] iota_S4096x100_d1_w32 (ix2 r k) = BitVec.ofNat 32 k.val :=
    iota_single_apply _ _ _ _ _ _
  unfold hot
  rw [← h4, ← h3]
  rfl

/-- THE BODY AT ROW `r`: the column sum of source row × (one-hot row against the relation table) × destination row. -/
theorem pay_apply (ty : IVec S4096 32) (rel : FVec Ideal S100x128 .f32) (zs zd : FVec Ideal S4096x128 .f32) (r : Fin 4096) :
    k0_pay1 (F := Ideal) ty rel zs zd (ix1 r)
      = ∑ d : Fin 128, zs (ix2 r d) * (∑ k : Fin 100, hot (ty (ix1 r)) k * rel (ix2 k d)) * zd (ix2 r d) := by
  unfold k0_pay1
  refine (colsum_at _ rfl r).trans ?_
  refine Finset.sum_congr rfl fun d _ => ?_
  rw [mulf_apply, mulf_apply, matmul_at]
  simp only [shapeCast_self]
  refine congrArg (fun s => zs (ix2 r d) * s * zd (ix2 r d)) (Finset.sum_congr rfl fun k _ => ?_)
  rw [onehot_at]
  rfl

/-- … and where the row's type word names a relation, that is the sum of source × the relation's row × destination. -/
theorem pay_apply_of_lt (ty : IVec S4096 32) (rel : FVec Ideal S100x128 .f32) (zs zd : FVec Ideal S4096x128 .f32) (r : Fin 4096)
    (hw : (ty (ix1 r)).toNat < 100) :
    k0_pay1 (F := Ideal) ty rel zs zd (ix1 r)
      = ∑ d : Fin 128, zs (ix2 r d) * rel (ix2 (clampRow 100 (by decide) (ty (ix1 r))) d) * zd (ix2 r d) := by
  rw [pay_apply]
  refine Finset.sum_congr rfl fun d _ => ?_
  rw [sum_hot (ty (ix1 r)) hw (fun k => rel (ix2 k d))]
  have e : (⟨(ty (ix1 r)).toNat, hw⟩ : Fin 100) = clampRow 100 (by decide) (ty (ix1 r)) :=
    Fin.ext (clampRow_val_of_lt 100 (by decide) (by decide) _ hw).symm
  rw [e]

end Cert.KernelIdeal.Body

end
-- ==== Proof.BlocksIdx.lean ====
/-
  From blocks to the array.

  The region walks 147 grid points; at point `t` it stages rows `[4096 t, 4096 (t + 1))` of the gathered source rows,
  of the gathered destination rows and of the padded relation types, the whole relation table, and writes back entries
  `[4096 t, 4096 (t + 1))` of its result. So every entry `e` of the padded result is written by exactly the point
  `e / 4096`, and what is written there is the body's value at row `e % 4096` of the blocks, which are the arrays'
  rows `e`: the padded result is ONE function of the four staged arrays,
      padScore e = ∑ d, zs[e, d] * (∑ k, hot (types[e]) k * rel[k, d]) * zd[e, d].
-/
import proofs.«401409_j25074019074708_1_alg».proof.Proof.Gen.KernelIdeal.Frame
import proofs.«401409_j25074019074708_1_alg».proof.Proof.KernelBody
import Idealize.ShloMosaic.Lib.Pipeline.Value

set_option maxRecDepth 16384

noncomputable section

open scoped BigOperators

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body

variable (m : (ℓ : Loc nD τ sig) → Buf (Elt Ideal) ℓ)

/-! ## The padded score -/

/-- Entry `q` of the padded score, from the arrays the region stages. -/
def padScoreAt (zs zd : FVec Ideal S602112x128 .f32) (ty : IVec S602112 32) (rel : FVec Ideal S100x128 .f32)
    (q : Fin 602112) : EReal :=
  ∑ d : Fin 128, zs (ix2 q d) * (∑ k : Fin 100, hot (ty (ix1 q)) k * rel (ix2 k d)) * zd (ix2 q d)

/-- The padded score, one entry per padded edge. -/
def padScore (zs zd : FVec Ideal S602112x128 .f32) (ty : IVec S602112 32) (rel : FVec Ideal S100x128 .f32) :
    FVec Ideal S602112 .f32 :=
  fun e => padScoreAt zs zd ty rel (e 0)

/-! ## The staged arrays, by their literal types -/

/-- The gathered source rows, as the region finds them. -/
abbrev zsArr (c : Dev nD) : FVec Ideal S602112x128 .f32 := V m c main_v7
/-- The gathered destination rows. -/
abbrev zdArr (c : Dev nD) : FVec Ideal S602112x128 .f32 := V m c main_v8
/-- The padded relation types. -/
abbrev tyArr (c : Dev nD) : IVec S602112 32 := V m c main_v6
/-- The relation table. -/
abbrev relArr (c : Dev nD) : FVec Ideal S100x128 .f32 := V m c main_arg1

/-! ## The index maps over the grid -/

/-- Every moving window is at block `t` at point `t`; the relation table's one block stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 1) = t.val
    ∧ win0_3.index t (0 : Fin 2) = 0 ∧ win0_3.index t (1 : Fin 2) = 0
    ∧ win0_4.index t (0 : Fin 1) = t.val :=
  (by decide +kernel : ∀ t : Fin grid0.N, _)

theorem t_lt (t : Fin cfg0.N) : t.val < 147 := lt_of_lt_of_eq t.isLt N_0

/-- Row `r` of block `t` is row `4096 t + r` of the array. -/
def row (t : Fin cfg0.N) (r : Fin 4096) : Fin 602112 := ⟨t.val * 4096 + r.val, by have := t_lt t; have := r.isLt; omega⟩

end Cert.KernelIdeal.Blocks

end
-- ==== Proof.BlockReads.lean ====
/-
  A block read through its window is the array read at the block's rows.

  At point `t` every moving window's block starts at row `4096 t`, and the relation table's one block is the table. Each
  fact is stated for ANY contents of the array, so that it is the window's geometry alone that is opened; the arrays the
  region really finds are put in afterwards.
-/
import proofs.«401409_j25074019074708_1_alg».proof.Proof.BlocksIdx
set_option maxRecDepth 16384

noncomputable section

open scoped BigOperators

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body

variable (m : (ℓ : Loc nD τ sig) → Buf (Elt Ideal) ℓ)

/-! ## The windows' geometry, for any contents -/

theorem read0 (t : Fin cfg0.N) (f : FVec Ideal S602112x128 .f32) (r : Fin 4096) (d : Fin 128) :
    ((cfg0.win 0).blk t).view.read (Elt Ideal) f (ix2 r d) = f (ix2 (row t r) d) := by
  obtain ⟨e0, e1, -⟩ := idx_facts t
  show f (((cfg0.win 0).blk t).view.emb (ix2 r d)) = f (ix2 (row t r) d)
  refine congrArg f (funext fun a => Fin.ext ?_)
  match a with
  | ⟨0, _⟩ => show win0_0.index t (0 : Fin 2) * 4096 + 1 * r.val = t.val * 4096 + r.val; omega
  | ⟨1, _⟩ => show win0_0.index t (1 : Fin 2) * 128 + 1 * d.val = d.val; omega

theorem read1 (t : Fin cfg0.N) (f : FVec Ideal S602112x128 .f32) (r : Fin 4096) (d : Fin 128) :
    ((cfg0.win 1).blk t).view.read (Elt Ideal) f (ix2 r d) = f (ix2 (row t r) d) := by
  obtain ⟨-, -, e0, e1, -⟩ := idx_facts t
  show f (((cfg0.win 1).blk t).view.emb (ix2 r d)) = f (ix2 (row t r) d)
  refine congrArg f (funext fun a => Fin.ext ?_)
  match a with
  | ⟨0, _⟩ => show win0_1.index t (0 : Fin 2) * 4096 + 1 * r.val = t.val * 4096 + r.val; omega
  | ⟨1, _⟩ => show win0_1.index t (1 : Fin 2) * 128 + 1 * d.val = d.val; omega

theorem read2 (t : Fin cfg0.N) (f : IVec S602112 32) (r : Fin 4096) :
    ((cfg0.win 2).blk t).view.read (Elt Ideal) f (ix1 r) = f (ix1 (row t r)) := by
  obtain ⟨-, -, -, -, e0, -⟩ := idx_facts t
  show f (((cfg0.win 2).blk t).view.emb (ix1 r)) = f (ix1 (row t r))
  refine congrArg f (funext fun a => Fin.ext ?_)
  match a with
  | ⟨0, _⟩ => show win0_2.index t (0 : Fin 1) * 4096 + 1 * r.val = t.val * 4096 + r.val; omega

theorem read3 (t : Fin cfg0.N) (f : FVec Ideal S100x128 .f32) (k : Fin 100) (d : Fin 128) :
    ((cfg0.win 3).blk t).view.read (Elt Ideal) f (ix2 k d) = f (ix2 k d) := by
  obtain ⟨-, -, -, -, -, e0, e1, -⟩ := idx_facts t
  show f (((cfg0.win 3).blk t).view.emb (ix2 k d)) = f (ix2 k d)
  refine congrArg f (funext fun a => Fin.ext ?_)
  match a with
  | ⟨0, _⟩ => show win0_3.index t (0 : Fin 2) * 100 + 1 * k.val = k.val; omega
  | ⟨1, _⟩ => show win0_3.index t (1 : Fin 2) * 128 + 1 * d.val = d.val; omega

/-- Entry `r` of the result's block `t` is entry `4096 t + r` of the result. -/
theorem read4 (t : Fin cfg0.N) (g : FVec Ideal S602112 .f32) (r : Fin 4096) :
    ((cfg0.win 4).blk t).view.read (Elt Ideal) g (ix1 r) = g (ix1 (row t r)) := by
  obtain ⟨-, -, -, -, -, -, -, e0⟩ := idx_facts t
  show g (((cfg0.win 4).blk t).view.emb (ix1 r)) = g (ix1 (row t r))
  refine congrArg g (funext fun a => Fin.ext ?_)
  match a with
  | ⟨0, _⟩ => show win0_4.index t (0 : Fin 1) * 4096 + 1 * r.val = t.val * 4096 + r.val; omega

/-- The result's blocks tile its array, so the part of a block that is written back is the block. -/
theorem cut4 (t : Fin cfg0.N) (X : FVec Ideal S4096 .f32) (r : Fin 4096) :
    (cfg0.win 4).cut (grid0.coords t) X (ix1 r) = X (ix1 r) := rfl

theorem hz1 : (![0] : Fin 1 → Nat) = fun _ => 0 := funext fun a => by fin_cases a <;> rfl
theorem hz2 : (![0, 0] : Fin 2 → Nat) = fun _ => 0 := funext fun a => by fin_cases a <;> rfl

/-- The body's one store covers the result's staging buffer: what it leaves there is the stored value. -/
theorem out0_4_eq (x0 x1 : FVec Ideal S4096x128 .f32) (x2 : IVec S4096 32) (x3 : FVec Ideal S100x128 .f32) :
    out0_4 (F := Ideal) x0 x1 x2 x3 = k0_pay1 (F := Ideal) x2 x3 x0 x1 := by
  unfold out0_4
  rw [View.canon_unit_zero hz1]
  simp only [View.ld_unit_zero (S := S4096) hz1, View.ld_unit_zero (S := S100x128) hz2, View.ld_unit_zero (S := S4096x128) hz2]

theorem padScore_apply (zs zd : FVec Ideal S602112x128 .f32) (ty : IVec S602112 32) (rel : FVec Ideal S100x128 .f32)
    (q : Fin 602112) : padScore zs zd ty rel (ix1 q) = padScoreAt zs zd ty rel q := rfl

/-! ## The blocks of the arrays the region finds -/

theorem blk0_at (c : Dev nD) (t : Fin cfg0.N) (r : Fin 4096) (d : Fin 128) :
    iblk m c 0 t (ix2 r d) = zsArr m c (ix2 (row t r) d) := by
  unfold iblk
  exact read0 t (V m c main_v7) r d

theorem blk1_at (c : Dev nD) (t : Fin cfg0.N) (r : Fin 4096) (d : Fin 128) :
    iblk m c 1 t (ix2 r d) = zdArr m c (ix2 (row t r) d) := by
  unfold iblk
  exact read1 t (V m c main_v8) r d

theorem blk2_at (c : Dev nD) (t : Fin cfg0.N) (r : Fin 4096) :
    iblk m c 2 t (ix1 r) = tyArr m c (ix1 (row t r)) := by
  unfold iblk
  exact read2 t (V m c main_v6) r

theorem blk3_at (c : Dev nD) (t : Fin cfg0.N) (k : Fin 100) (d : Fin 128) :
    iblk m c 3 t (ix2 k d) = relArr m c (ix2 k d) := by
  unfold iblk
  exact read3 t (V m c main_arg1) k d

end Cert.KernelIdeal.Blocks

end
-- ==== Proof.Cover.lean ====
/-
  The result's blocks cover its array: entry `e` lies in the block of point `e / 4096`, and every point writes back.
-/
import proofs.«401409_j25074019074708_1_alg».proof.Proof.BlocksIdx
set_option maxRecDepth 16384

noncomputable section

open scoped BigOperators

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body

variable (m : (ℓ : Loc nD τ sig) → Buf (Elt Ideal) ℓ)
/-! ## The blocks cover the array -/

/-- An entry of the padded result is in point `t`'s block iff it lies in `[4096 t, 4096 (t + 1))`. -/
theorem mem_blk (t : Fin cfg0.N) (i : S602112.Idx) :
    i ∈ ((cfg0.win 4).blk t).view.set ↔ ∀ a : Fin 1, win0_4.index t a * S4096.size a ≤ (i a).val ∧ (i a).val < win0_4.index t a * S4096.size a + S4096.size a := by
  show i ∈ ((View.whole main_v9).slice (win0_4.rect t)).set ↔ _
  rw [View.set_slice_whole, Rect.mem_set_unit]
  exact Iff.rfl

/-- Every entry is in the block of the point `e / 4096`. -/
theorem cover (i : S602112.Idx) : ∃ t : Fin cfg0.N, (cfg0.win 4).flush t = true ∧ i ∈ ((cfg0.win 4).blk t).view.set := by
  have hi : (i 0).val < 602112 := (i 0).isLt
  let t : Fin cfg0.N := ⟨(i 0).val / 4096, by rw [show cfg0.N = 147 from N_0]; omega⟩
  refine ⟨t, flush0_4 t, ?_⟩
  rw [mem_blk]
  obtain ⟨-, -, -, -, -, -, -, e0⟩ := idx_facts t
  intro a
  match a with
  | ⟨0, _⟩ =>
    show win0_4.index t (0 : Fin 1) * 4096 ≤ (i 0).val ∧ (i 0).val < win0_4.index t (0 : Fin 1) * 4096 + 4096
    have ht : t.val = (i 0).val / 4096 := rfl
    omega

end Cert.KernelIdeal.Blocks

end
-- ==== Proof.Flushed.lean ====
/-
  What a point writes back, and the array after the run.

  Point `t` writes back the body's stored value on its blocks. Row `r` of that value is the column sum of
  source × (one-hot row against the relation table) × destination over the blocks' row `r`, and the blocks' row `r`
  is the arrays' row `4096 t + r`: it is entry `4096 t + r` of the padded score. The blocks cover the array, so after
  the run the result array IS the padded score of the arrays the region found.
-/
import proofs.«401409_j25074019074708_1_alg».proof.Proof.BlockReads
import proofs.«401409_j25074019074708_1_alg».proof.Proof.Cover
set_option maxRecDepth 16384

noncomputable section

open scoped BigOperators

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body

variable (m : (ℓ : Loc nD τ sig) → Buf (Elt Ideal) ℓ)

/-- WHAT POINT `t` WRITES BACK is block `t` of the padded score of the staged arrays. -/
theorem flushed_eq (c : Dev nD) (t : Fin cfg0.N) :
    (dats m 0 c).flushed 4 t
      = ((cfg0.win 4).blk t).view.read (Elt Ideal) (padScore (zsArr m c) (zdArr m c) (tyArr m c) (relArr m c)) := by
  funext j
  obtain ⟨r, rfl⟩ : ∃ r : Fin 4096, j = ix1 r := ⟨j 0, eq_ix1 j⟩
  rw [read4 t _ r, padScore_apply]
  show (cfg0.win 4).cut (grid0.coords t) ((dats m 0 c).after 4 t) (ix1 r) = _
  rw [cut4, after0_4, out0_4_eq]
  refine (pay_apply (iblk m c 2 t) (iblk m c 3 t) (iblk m c 0 t) (iblk m c 1 t) r).trans ?_
  unfold padScoreAt
  refine Finset.sum_congr rfl fun d _ => ?_
  rw [blk0_at m c t r d, blk1_at m c t r d, blk2_at m c t r]
  refine congrArg (fun s => zsArr m c (ix2 (row t r) d) * s * zdArr m c (ix2 (row t r) d)) (Finset.sum_congr rfl fun k _ => ?_)
  rw [blk3_at m c t k d]

/-- THE ARRAY after the run is the padded score of the staged arrays. -/
theorem final (c : Dev nD) :
    (dats m 0 c).arrAt 4 cfg0.N = padScore (zsArr m c) (zdArr m c) (tyArr m c) (relArr m c) :=
  (dats m 0 c).arrAt_eq_of_cover 4 (padScore (zsArr m c) (zdArr m c) (tyArr m c) (relArr m c))
    (fun t _ => flushed_eq m c t) cover

end Cert.KernelIdeal.Blocks

end
-- ==== Proof.Tail.lean ====
/-
  After the region the program keeps the first 600000 entries of the padded result: the padding edges' scores are dropped.
-/
import proofs.«401409_j25074019074708_1_alg».proof.Proof.Flushed
import Idealize.ShloMosaic.Lib.StableHlo.Run
set_option maxRecDepth 16384

noncomputable section

open scoped BigOperators

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body

variable (m : (ℓ : Loc nD τ sig) → Buf (Elt Ideal) ℓ)

open Idealize.ShloMosaic.StableHlo

/-- The one operation after the region, from any contents of the buffers: the result is the leading slice of the
    region's result array. -/
theorem tail_of (W : Valuation τ sig (Elt Ideal)) :
    StableHlo.after (hostOps1 (F := Ideal)) W (Proc.devRef .tc main_v10)
      = extractStridedSlice S600000 ![0] (W (Proc.devRef .tc main_v9)) slices_S602112_S600000_0 := by
  after_results

/-- The leading slice at entry `p` is the array at entry `p`. -/
theorem slice_at (x : FVec Ideal S602112 .f32) (p : Fin 600000) :
    extractStridedSlice S600000 ![0] x slices_S602112_S600000_0 (ix1 p)
      = x (ix1 (⟨p.val, lt_trans p.isLt (by decide)⟩ : Fin 602112)) :=
  extractStridedSlice_apply ![0] x slices_S602112_S600000_0 (ix1 p) (ix1 ⟨p.val, lt_trans p.isLt (by decide)⟩) (fun a => match a with
    | ⟨0, _⟩ => by show p.val = 0 + p.val; omega)

/-- THE RESULT BUFFER after the whole run: the leading 600000 entries of the padded score of the staged arrays. -/
theorem result_eq (c : Dev nD) :
    Pipeline.afterTail₀ cfgs (dats m) 0 (V0 m) [hostOps1] c main_v10
      = extractStridedSlice S600000 ![0] (padScore (zsArr m c) (zdArr m c) (tyArr m c) (relArr m c)) slices_S602112_S600000_0 := by
  unfold Pipeline.afterTail₀
  simp only [List.flatten_cons, List.flatten_nil, List.append_nil]
  rw [tail_of]
  refine congrArg (fun x : FVec Ideal S602112 .f32 => extractStridedSlice S600000 ![0] x slices_S602112_S600000_0) ?_
  exact (Pipeline.withArrays_arr spec0 launch0.win.arr_inj c _ _ 4).trans (final m c)

end Cert.KernelIdeal.Blocks

end
-- ==== Proof.HostPrefix.lean ====
/-
  What the kernel's region finds in its input arrays. Before the region the program slices rows 0 and 1 of the endpoint
  table, pads each and the relation types with zero words from 600000 to 602112 entries, and gathers the node table's
  rows at the padded endpoints, a row of NaN standing where an index word is outside the table. On index words inside
  the table (`InRange`) nothing is outside: entry `p < 600000` of the padded types is the argument's entry `p`, and row `p`
  of each gathered array is the node table's row at the endpoint word `(0, p)`, respectively `(1, p)`.
-/
import proofs.«401409_j25074019074708_1_alg».proof.Proof.Gen.KernelIdeal.Frame
import proofs.«401409_j25074019074708_1_alg».proof.Proof.LibGatherRows
import proofs.«401409_j25074019074708_1_alg».proof.Proof.Spec
import Idealize.ShloMosaic.Lib.StableHlo.Run
import Idealize.ShloMosaic.Lib.StableHlo.Predicate
import Idealize.ShloMosaic.Lib.Pipeline.Value
noncomputable section
namespace Cert.KernelIdeal.HostPrefix
open Idealize.ShloMosaic Idealize.ShloMosaic.TcCoe Idealize.ShloMosaic.ValueIdx Idealize.SL.Sem Cert.KernelIdeal Cert.KernelIdeal.Gen Cert.DistMult
variable (m : (ℓ : Loc nD τ sig) → Buf (Elt Ideal) ℓ)

open Idealize.ShloMosaic.StableHlo.Predicate

/-! ## The terms the operations before the region compute -/

/-- Row 0 of the endpoint table as a vector: the slice of the row, then its reshape to rank one. -/
def endsRow0 (e : IVec S2x600000 32) : IVec S600000 32 :=
  shapeCast S600000 (extractStridedSlice S1x600000 ![0, 0] e slices_S2x600000_S1x600000_0_0) shapeCasts_S1x600000_S600000

/-- Row 1 likewise. -/
def endsRow1 (e : IVec S2x600000 32) : IVec S600000 32 :=
  shapeCast S600000 (extractStridedSlice S1x600000 ![1, 0] e slices_S2x600000_S1x600000_1_0) shapeCasts_S1x600000_S600000

/-- A vector of 600000 words continued by 2112 zero words. -/
def padded (w : IVec S600000 32) : IVec S602112 32 :=
  pad S602112 ![0] ![2112] ![0] w (id (constantI S_ 32 0#32)) pads_S600000_S602112_021120 h_S_

/-- Index words with the negative ones moved up by the table's height. -/
def wrapped (w : IVec S602112 32) : IVec S602112 32 :=
  select (cmpi .slt w (broadcastInDim S602112 ![] bcast_S_S602112 (constantI S_ 32 0#32)))
    (addi w (broadcastInDim S602112 ![] bcast_S_S602112 (constantI S_ 32 100000#32))) w

/-- The same as a column: the gather's start indices. -/
def column (w : IVec S602112 32) : IVec S602112x1 32 :=
  broadcastInDim S602112x1 ![0] bcast_S602112_S602112x1_0 (wrapped w)

/-- Per position, whether the start index lies inside the table: `0 ≤ idx ∧ idx ≤ 99999`, the conjunction reduced over
    the column's one-entry axis. -/
def inBounds (w : IVec S602112 32) : IVec S602112 1 :=
  Host.reduce IntOp.andi
    (andi (cmpi .sge (column w) (broadcastInDim S602112x1 ![] bcast_S_S602112x1 (constantI S_ 32 0#32)))
      (cmpi .sle (column w) (broadcastInDim S602112x1 ![0, 1] bcast_S1x1_S602112x1_0_1
        (broadcastInDim S1x1 ![1] bcast_S1_S1x1_1 (constantI S1 32 99999#32)))))
    (constantI S_ 1 1#1) reducesTo_S602112x1_S602112_d1 h_S_

/-- The rows of the table at the index words, a row of NaN where the word is outside the table. -/
def takeRows {F : FTy → Type} [FloatOps F] (x0 : FVec F S100000x128 .f32) (w : IVec S602112 32) :
    FVec F S602112x128 .f32 :=
  select (broadcastInDim S602112x128 ![0] bcast_S602112_S602112x128_0 (inBounds w))
    (Host.gather gather_S100000x128_S602112x1_S602112x128_1_0_n_n_0_1_1128 x0 (column w))
    (broadcastInDim S602112x128 ![] bcast_S_S602112x128 (constant (F := F) S_ .f32 0x7FC00000#32))

/-- Contents moved to a buffer's own type and back are the contents. -/
theorem ofBuf_toBuf {T : BufTy} {Val : EltTy → Type} (x : StableHlo.TRef sig T) (v : T.Contents Val) :
    x.ofBuf (x.toBuf v) = v := by
  show cast _ (cast _ v) = v
  rw [cast_cast, cast_eq]

/-! ## The arrays as the region finds them

Each is the fold of the operations before the region read at the array's buffer: the operations' results composed,
over the argument arrays as launched. Stated for any float type (the operations here move and compare words; no float
is computed), then taken at the ideal one. -/

section AnyFloat

variable {F : FTy → Type} [FloatOps F] (mF : (ℓ : Loc nD τ sig) → Buf (Elt F) ℓ)

open Idealize.ShloMosaic.StableHlo in
/-- The relation types as the region finds them: the argument, padded. -/
theorem V6_eq_any (c : Dev nD) :
    (V mF c main_v6 : S602112.Idx → BitVec 32) = padded (mF ((c : Thread nD τ).loc main_arg3)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results_simp
  rfl

open Idealize.ShloMosaic.StableHlo in
/-- The gathered sources: the table's rows at row 0 of the endpoints, padded. -/
theorem V7_eq_any (c : Dev nD) :
    (V mF c main_v7 : S602112x128.Idx → F .f32)
      = takeRows (mF ((c : Thread nD τ).loc main_arg0)) (padded (endsRow0 (mF ((c : Thread nD τ).loc main_arg2)))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results_simp
  -- a value written to a buffer and read back from it
  simp only [ofBuf_toBuf]
  -- the argument buffers' and the result buffer's types are the values' own
  simp only [TRef.ofBuf, TRef.toBuf, cast_eq]
  rfl

open Idealize.ShloMosaic.StableHlo in
/-- The gathered destinations: the table's rows at row 1 of the endpoints, padded. -/
theorem V8_eq_any (c : Dev nD) :
    (V mF c main_v8 : S602112x128.Idx → F .f32)
      = takeRows (mF ((c : Thread nD τ).loc main_arg0)) (padded (endsRow1 (mF ((c : Thread nD τ).loc main_arg2)))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results_simp
  simp only [ofBuf_toBuf]
  simp only [TRef.ofBuf, TRef.toBuf, cast_eq]
  rfl

end AnyFloat

theorem V6_eq (c : Dev nD) :
    (V m c main_v6 : S602112.Idx → BitVec 32) = padded (m ((c : Thread nD τ).loc main_arg3)) := V6_eq_any m c

theorem V7_eq (c : Dev nD) :
    (V m c main_v7 : S602112x128.Idx → EReal)
      = takeRows (F := Ideal) (m ((c : Thread nD τ).loc main_arg0))
          (padded (endsRow0 (m ((c : Thread nD τ).loc main_arg2)))) :=
  V7_eq_any m c

theorem V8_eq (c : Dev nD) :
    (V m c main_v8 : S602112x128.Idx → EReal)
      = takeRows (F := Ideal) (m ((c : Thread nD τ).loc main_arg0))
          (padded (endsRow1 (m ((c : Thread nD τ).loc main_arg2)))) :=
  V8_eq_any m c

/-! ## The terms read at an index -/

/-- Row 0 of the endpoints at `p` is the table's entry `(0, p)`. -/
theorem endsRow0_apply (e : IVec S2x600000 32) (p : Fin 600000) : endsRow0 e (ix1 p) = e (ix2 (0 : Fin 2) p) := by
  unfold endsRow0
  refine (shapeCast_apply _ shapeCasts_S1x600000_S600000 (ix1 p) (ix2 (0 : Fin 1) p) ?_).trans ?_
  · rewrite [Shape.rowMajor_val_two, Shape.rowMajor_val_one]
    show 0 * 600000 + p.val = p.val
    omega
  · exact extractStridedSlice_apply ![0, 0] e slices_S2x600000_S1x600000_0_0 (ix2 (0 : Fin 1) p) (ix2 (0 : Fin 2) p)
      (fun a => match a with
        | ⟨0, _⟩ => by show (0 : Nat) = 0 + 0; rfl
        | ⟨1, _⟩ => by show p.val = 0 + p.val; omega)

/-- Row 1 at `p` is the entry `(1, p)`. -/
theorem endsRow1_apply (e : IVec S2x600000 32) (p : Fin 600000) : endsRow1 e (ix1 p) = e (ix2 (1 : Fin 2) p) := by
  unfold endsRow1
  refine (shapeCast_apply _ shapeCasts_S1x600000_S600000 (ix1 p) (ix2 (0 : Fin 1) p) ?_).trans ?_
  · rewrite [Shape.rowMajor_val_two, Shape.rowMajor_val_one]
    show 0 * 600000 + p.val = p.val
    omega
  · exact extractStridedSlice_apply ![1, 0] e slices_S2x600000_S1x600000_1_0 (ix2 (0 : Fin 1) p) (ix2 (1 : Fin 2) p)
      (fun a => match a with
        | ⟨0, _⟩ => by show (1 : Nat) = 1 + 0; rfl
        | ⟨1, _⟩ => by show p.val = 0 + p.val; omega)

/-- Below 600000 the padded vector is the vector. -/
theorem padded_apply (w : IVec S600000 32) (p : Fin 600000) :
    padded w (ix1 ⟨p.val, by omega⟩) = w (ix1 p) := by
  unfold padded pad
  have hp := p.isLt
  rw [dif_pos (fun a => match a with
    | ⟨0, _⟩ => by
      refine ⟨Nat.zero_le _, ?_, ?_⟩
      · show (p.val - 0) % (0 + 1) = 0
        omega
      · show (p.val - 0) / (0 + 1) < 600000
        rw [Nat.sub_zero, Nat.div_one]; exact hp)]
  refine congrArg w (funext fun a => ?_)
  match a with
  | ⟨0, _⟩ =>
    apply Fin.ext
    show (p.val - 0) / (0 + 1) = p.val
    rw [Nat.sub_zero, Nat.div_one]

/-- A word inside the table is not negative, so wrapping leaves it. -/
theorem wrapped_apply (w : IVec S602112 32) (q : S602112.Idx) (hw : (w q).toNat < 100000) : wrapped w q = w q := by
  unfold wrapped
  rw [select_apply]
  have h0 : cmpi .slt w (broadcastInDim S602112 ![] bcast_S_S602112 (constantI S_ 32 0#32)) q = 0#1 := by
    show IntOp.cmpi .slt (w q) 0#32 = 0#1
    refine eq_zero_of_ne_one fun h => ?_
    have := (slt_iff_toNat (a := w q) (b := 0#32) (by omega) (by decide)).mp h
    simp at this
  rw [h0, select_zero]

/-- The start index of position `q`. -/
theorem column_apply (w : IVec S602112 32) (q : Fin 602112) (hw : (w (ix1 q)).toNat < 100000) :
    column w (ixP q) = w (ix1 q) := by
  unfold column
  generalize hy : wrapped w = y
  rw [broadcastInDim_apply _ bcast_S602112_S602112x1_0 y (ixP q) (ix1 q) (fun a => match a with
    | ⟨0, _⟩ => by show q.val = if (602112 : Nat) = 1 then 0 else q.val; rw [if_neg (by decide)])]
  rw [← hy]
  exact wrapped_apply w (ix1 q) hw

/-- The fold of a commutative, associative operation over the one coordinate of a unit axis. -/
theorem fold_fin_one {α : Type} (f : α → α → α) [Std.Commutative f] [Std.Associative f] (b : α) (g : Fin 1 → α) :
    (Finset.univ : Finset (Fin 1)).fold f b g = f (g 0) b := by
  rw [Finset.univ_unique, Finset.fold_singleton]
  rfl

/-- A position whose word is inside the table is marked in bounds: `0 ≤ w` and `w ≤ 99999` both hold, and the
    reduction over the column's unit axis is their conjunction with the initial 1. -/
theorem inBounds_apply (w : IVec S602112 32) (q : Fin 602112) (hw : (w (ix1 q)).toNat < 100000) :
    inBounds w (ix1 q) = 1#1 := by
  unfold inBounds
  have hc := column_apply w q hw
  generalize column w = col at hc
  have hR : S602112x1.Reduces [1] S602112 := by decide
  rw [Host.reduce_eq_fold_single IntOp.andi _ _ reducesTo_S602112x1_S602112_d1 hR h_S_ (ix1 q)]
  have hl : hR.lift (ix1 q) (0 : Fin 1) = ixP q := by
    funext a
    match a with
    | ⟨0, _⟩ => exact Fin.ext rfl
    | ⟨1, _⟩ => exact Fin.ext rfl
  refine (fold_fin_one IntOp.andi _ _).trans ?_
  show IntOp.andi (IntOp.andi (IntOp.cmpi .sge (col (hR.lift (ix1 q) (0 : Fin 1))) 0#32)
    (IntOp.cmpi .sle (col (hR.lift (ix1 q) (0 : Fin 1))) 99999#32)) 1#1 = 1#1
  rw [hl, hc]
  have h1 : IntOp.cmpi .sge (w (ix1 q)) 0#32 = 1#1 :=
    (sge_iff_toNat (by omega) (by decide)).mpr (Nat.zero_le _)
  have h2 : IntOp.cmpi .sle (w (ix1 q)) 99999#32 = 1#1 :=
    (sle_iff_toNat (by omega) (by decide)).mpr (by show (w (ix1 q)).toNat ≤ 99999; omega)
  rw [h1, h2]
  rfl

/-- At a position whose word is inside the table, the gathered row is the table's row at that word. -/
theorem takeRows_apply (x0 : FVec Ideal S100000x128 .f32) (w : IVec S602112 32) (q : Fin 602112) (d : Fin 128)
    (hw : (w (ix1 q)).toNat < 100000) :
    takeRows x0 w (ix2 q d) = x0 (ix2 (clampRow 100000 (by decide) (w (ix1 q))) d) := by
  unfold takeRows
  have hi := inBounds_apply w q hw
  have hc := column_apply w q hw
  generalize inBounds w = msk at hi
  generalize column w = col at hc
  rw [select_apply]
  rw [broadcastInDim_apply _ bcast_S602112_S602112x128_0 msk (ix2 q d) (ix1 q) (fun a => match a with
    | ⟨0, _⟩ => by show q.val = if (602112 : Nat) = 1 then 0 else q.val; rw [if_neg (by decide)])]
  rw [hi, select_one]
  rw [GatherRows.gather_rows gather_S100000x128_S602112x1_S602112x128_1_0_n_n_0_1_1128 rfl rfl rfl rfl rfl x0 col q d
    (by decide)]
  refine congrArg x0 (congrArg (fun r => ix2 r d) (Fin.ext ?_))
  show min (col (ixP q)).toInt.toNat (100000 - 1) = min (w (ix1 q)).toInt.toNat (100000 - 1)
  rw [hc]

/-! ## What the region finds -/

/-- The padded relation types are the argument on the first 600000 entries. -/
theorem types_apply (c : Dev nD) (p : Fin 600000) :
    (V m c main_v6 : IVec S602112 32) (ix1 ⟨p.val, by omega⟩)
      = (m ((c : Thread nD τ).loc main_arg3) : IVec S600000 32) (ix1 p) := by
  rw [V6_eq]
  exact padded_apply _ p

/-- On index words inside the node table, row `p` of the gathered sources is the source node's row. -/
theorem src_apply (c : Dev nD)
    (hr : InRange (m ((c : Thread nD τ).loc main_arg2)) (m ((c : Thread nD τ).loc main_arg3)))
    (p : Fin 600000) (d : Fin 128) :
    (V m c main_v7 : FVec Ideal S602112x128 .f32) (ix2 ⟨p.val, by omega⟩ d)
      = (m ((c : Thread nD τ).loc main_arg0) : FVec Ideal S100000x128 .f32)
          (ix2 (clampRow 100000 (by decide) ((m ((c : Thread nD τ).loc main_arg2) : IVec S2x600000 32) (ix2 (0 : Fin 2) p))) d) := by
  rw [V7_eq]
  have hin := hr.1 (ix2 (0 : Fin 2) p)
  generalize (m ((c : Thread nD τ).loc main_arg0) : FVec Ideal S100000x128 .f32) = x0
  generalize (m ((c : Thread nD τ).loc main_arg2) : IVec S2x600000 32) = e at hin
  have hw : padded (endsRow0 e) (ix1 ⟨p.val, by omega⟩) = e (ix2 (0 : Fin 2) p) := by
    rw [padded_apply, endsRow0_apply]
  rw [takeRows_apply x0 _ ⟨p.val, by omega⟩ d (by rw [hw]; exact hin), hw]

/-- … and of the gathered destinations the destination node's row. -/
theorem dst_apply (c : Dev nD)
    (hr : InRange (m ((c : Thread nD τ).loc main_arg2)) (m ((c : Thread nD τ).loc main_arg3)))
    (p : Fin 600000) (d : Fin 128) :
    (V m c main_v8 : FVec Ideal S602112x128 .f32) (ix2 ⟨p.val, by omega⟩ d)
      = (m ((c : Thread nD τ).loc main_arg0) : FVec Ideal S100000x128 .f32)
          (ix2 (clampRow 100000 (by decide) ((m ((c : Thread nD τ).loc main_arg2) : IVec S2x600000 32) (ix2 (1 : Fin 2) p))) d) := by
  rw [V8_eq]
  have hin := hr.1 (ix2 (1 : Fin 2) p)
  generalize (m ((c : Thread nD τ).loc main_arg0) : FVec Ideal S100000x128 .f32) = x0
  generalize (m ((c : Thread nD τ).loc main_arg2) : IVec S2x600000 32) = e at hin
  have hw : padded (endsRow1 e) (ix1 ⟨p.val, by omega⟩) = e (ix2 (1 : Fin 2) p) := by
    rw [padded_apply, endsRow1_apply]
  rw [takeRows_apply x0 _ ⟨p.val, by omega⟩ d (by rw [hw]; exact hin), hw]

end Cert.KernelIdeal.HostPrefix
-- ==== Proof.KernelRun.lean ====
/-
  The kernel program's run, with its result read as the score.

  On index words inside their tables, entry `p < 600000` of the padded score is the score of edge `p`: the padded
  types agree with the types there, so the one-hot row selects the relation's row; and rows `p` of the gathered
  source and destination arrays are the rows of `z` that the endpoints name.
-/
import proofs.«401409_j25074019074708_1_alg».proof.Proof.Tail
import proofs.«401409_j25074019074708_1_alg».proof.Proof.HostPrefix
set_option maxRecDepth 16384

noncomputable section

open scoped BigOperators

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body

variable (m : (ℓ : Loc nD τ sig) → Buf (Elt Ideal) ℓ)

open Cert.KernelIdeal.HostPrefix Cert.DistMult

variable (ρ : Dev nD → PrngReg)

/-- THE RESULT BUFFER after the whole run is the score, on index words inside their tables. -/
theorem result_score (c : Dev nD)
    (hr : InRange (m ((c : Thread nD τ).loc main_arg2)) (m ((c : Thread nD τ).loc main_arg3))) :
    Pipeline.afterTail₀ cfgs (dats m) 0 (V0 m) [hostOps1] c main_v10
      = score (m ((c : Thread nD τ).loc main_arg0)) (m ((c : Thread nD τ).loc main_arg1))
          (m ((c : Thread nD τ).loc main_arg2)) (m ((c : Thread nD τ).loc main_arg3)) := by
  rw [result_eq]
  funext e
  obtain ⟨p, rfl⟩ : ∃ p : Fin 600000, e = ix1 p := ⟨e 0, eq_ix1 e⟩
  rw [slice_at, padScore_apply, score_apply]
  unfold padScoreAt scoreAt
  refine Finset.sum_congr rfl fun d _ => ?_
  simp only [zsArr, zdArr, tyArr, relArr]
  have ht := types_apply m c p
  have hw : ((V m c main_v6 : IVec S602112 32) (ix1 ⟨p.val, lt_trans p.isLt (by decide)⟩)).toNat < 100 := by
    rw [ht]; exact hr.2 _
  rw [sum_hot _ hw (fun k => (V m c main_arg1 : FVec Ideal S100x128 .f32) (ix2 k d))]
  have hk : (⟨((V m c main_v6 : IVec S602112 32) (ix1 ⟨p.val, lt_trans p.isLt (by decide)⟩)).toNat, hw⟩ : Fin 100)
      = clampRow 100 (by decide) ((m ((c : Thread nD τ).loc main_arg3) : IVec S600000 32) (ix1 p)) := by
    apply Fin.ext
    rw [clampRow_val_of_lt 100 (by decide) (by decide) _ (hr.2 _)]
    exact congrArg BitVec.toNat ht
  rw [hk, src_apply m c hr p d, dst_apply m c hr p d, V_main_arg1 m c]

/-- THE RUN: every weakly fair execution terminates with the result buffer at the score and the arguments unchanged. -/
theorem run (hr : ∀ c : Dev nD, InRange (m ((c : Thread nD τ).loc main_arg2)) (m ((c : Thread nD τ).loc main_arg3))) :
    θ_run defs (onTc (τ := τ) (main (F := Ideal))) ⟨m, fun _ => 0, ρ⟩ fun r => ∀ c : Dev nD,
      r.2.mem ((c.tc : Thread nD τ).loc main_v10)
        = score (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v10 (Pipeline.mem_restRefs_of main_v10 (by decide) (by decide))).trans (result_score m c (hr c)),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Blocks

end
-- ==== Proof.lean ====
/-
  DistMult edge scores: the kernel program against its reference, over the extended reals.

  Both programs compute, for every edge `p`,
      score p = ∑ d < 128, z[src p, d] * rel[type p, d] * z[dst p, d].
  The reference gathers the three rows and sums. The kernel program gathers the source and destination rows on the host,
  pads the edge list to a multiple of 4096, and in its region selects the relation's row by a one-hot matrix product
  (exact over the extended reals: `0 * x = 0` and `1 * x = x` for every `x`), multiplies and sums; the padding edges'
  scores are dropped at the end. The two agree where every endpoint word names a node and every type word names a
  relation: outside that domain the reference itself indexes out of range, and the statement's precondition says so.
  Neither side's arithmetic needs finiteness.
-/
import proofs.«401409_j25074019074708_1_alg».proof.Defs
import proofs.«401409_j25074019074708_1_alg».proof.Proof.Gen.Kernel
import proofs.«401409_j25074019074708_1_alg».proof.Proof.Gen.Kernel.Skeleton
import proofs.«401409_j25074019074708_1_alg».proof.Proof.Gen.Kernel.Launch
import proofs.«401409_j25074019074708_1_alg».proof.Proof.Gen.Kernel.Points
import proofs.«401409_j25074019074708_1_alg».proof.Proof.Gen.Kernel.Frame
import proofs.«401409_j25074019074708_1_alg».proof.Proof.Gen.KernelIdeal
import proofs.«401409_j25074019074708_1_alg».proof.Proof.Gen.KernelIdeal.Skeleton
import proofs.«401409_j25074019074708_1_alg».proof.Proof.Gen.KernelIdeal.Launch
import proofs.«401409_j25074019074708_1_alg».proof.Proof.Gen.KernelIdeal.Points
import proofs.«401409_j25074019074708_1_alg».proof.Proof.Gen.KernelIdeal.Frame
import proofs.«401409_j25074019074708_1_alg».proof.Proof.Gen.ReferenceIdeal
import proofs.«401409_j25074019074708_1_alg».proof.Proof.Gen.ReferenceIdeal.Run
import proofs.«401409_j25074019074708_1_alg».proof.Proof.Gen.ReferenceIdeal.Read
import proofs.«401409_j25074019074708_1_alg».proof.Proof.Gen.Pre_finite_inputs
import proofs.«401409_j25074019074708_1_alg».proof.Proof.Ranges
import proofs.«401409_j25074019074708_1_alg».proof.Proof.RefScore
import proofs.«401409_j25074019074708_1_alg».proof.Proof.KernelRun
import Idealize.ShloMosaic.Adequacy
import Idealize.ShloMosaic.Init

noncomputable section

namespace Cert.Proof

open Idealize.ShloMosaic Idealize.ShloMosaic.TcCoe Idealize.SL.Sem Cert.DistMult

/-- The reference runs, and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the score of the (agreeing) arguments in their result buffers. -/
theorem algebraic : Cert.algebraic_KernelIdeal_ReferenceIdeal := by
  intro m ρ m' ρ' hpre hagree
  have hr : ∀ c : Dev Cert.KernelIdeal.nD,
      InRange (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) :=
    fun c => inRange_of_pre _ _ _ _ (hpre c)
  refine ⟨_, Cert.KernelIdeal.Blocks.run m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2.1, (hagree c).2.2.1, (hagree c).2.2.2]
  exact Cert.ReferenceIdeal.RefValue.ref_eq_score _ _ _ _ (hr c)

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
